-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x1 : Shape := ⟨2, ![640000, 1]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x1 : S_.BroadcastsInDim S640000x1 (![] : Fin 0 → Fin S640000x1.rank)
  reducesTo_S640000x1_S_d0_1 : S640000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x128 .f32) (main_arg1 : IVec S2x640000 32) (main_arg2 : FVec F S640000x1 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x1 .f32 := Host.absf main_arg2
  let main_cst_0 : FVec F S_ .f32 := constant S_ .f32 0x7F800000#32
  let main_v5 : FVec F S640000x1 .f32 := broadcastInDim S640000x1 ![] bcast_S_S640000x1 main_cst_0
  let main_v6 : IVec S640000x1 1 := cmpf .olt main_v4 main_v5
  let main_c_1 : IVec S_ 1 := constantI S_ 1 1#1
  let main_v7 : IVec S_ 1 := (fun x v => Host.reduce IntOp.andi x v reducesTo_S640000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x640000 : Shape := ⟨2, ![2, 640000]⟩
abbrev S640000x1 : Shape := ⟨2, ![640000, 1]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x128 : Shape := ⟨2, ![640000, 128]⟩
abbrev S1x128 : Shape := ⟨2, ![1, 128]⟩
abbrev S5000x128 : Shape := ⟨2, ![5000, 128]⟩

abbrev nBuf : Space → Nat
  | .hbm => 63
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S1x640000, .i32⟩
  | .hbm, ⟨20, _⟩ => ⟨S640000, .i32⟩
  | .hbm, ⟨21, _⟩ => ⟨S1x640000, .i32⟩
  | .hbm, ⟨22, _⟩ => ⟨S640000, .i32⟩
  | .hbm, ⟨23, _⟩ => ⟨S_, .i32⟩
  | .hbm, ⟨24, _⟩ => ⟨S640000, .i32⟩
  | .hbm, ⟨25, _⟩ => ⟨S640000, .i1⟩
  | .hbm, ⟨26, _⟩ => ⟨S_, .i32⟩
  | .hbm, ⟨27, _⟩ => ⟨S640000, .i32⟩
  | .hbm, ⟨28, _⟩ => ⟨S640000, .i32⟩
  | .hbm, ⟨29, _⟩ => ⟨S640000, .i32⟩
  | .hbm, ⟨30, _⟩ => ⟨S640000x1, .i32⟩
  | .hbm, ⟨31, _⟩ => ⟨S640000x128, .f32⟩
  | .hbm, ⟨32, _⟩ => ⟨S640000x128, .f32⟩
  | .hbm, ⟨33, _⟩ => ⟨S640000x128, .f32⟩
  | .hbm, ⟨34, _⟩ => ⟨S_, .f32⟩
  | .hbm, ⟨35, _⟩ => ⟨S50000x128, .f32⟩
  | .hbm, ⟨36, _⟩ => ⟨S640000x1, .i32⟩
  | .hbm, ⟨37, _⟩ => ⟨S50000x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S640000x128, .f32⟩
  | .hbm, ⟨53, _⟩ => ⟨S640000x128, .f32⟩
  | .hbm, ⟨54, _⟩ => ⟨S_, .f32⟩
  | .hbm, ⟨55, _⟩ => ⟨S50000x128, .f32⟩
  | .hbm, ⟨56, _⟩ => ⟨S640000x1, .i32⟩
  | .hbm, ⟨57, _⟩ => ⟨S50000x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c_1 : Ref sig .tc := ⟨.hbm, 43, rfl⟩
abbrev main_v21 : Ref sig .tc := ⟨.hbm, 44, rfl⟩
abbrev main_v22 : Ref sig .tc := ⟨.hbm, 45, rfl⟩
abbrev main_c_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg15) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg17) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x1 : Shape := ⟨2, ![640000, 1]⟩
abbrev S128x128 : Shape := ⟨2, ![128, 128]⟩
abbrev S128 : Shape := ⟨1, ![128]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S640000x128 : Shape := ⟨2, ![640000, 128]⟩

abbrev nBuf : Space → Nat
  | .hbm => 101
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x1, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S50000x128, .f32⟩
  | .hbm, ⟨20, _⟩ => ⟨S1x128, .f32⟩
  | .hbm, ⟨21, _⟩ => ⟨S50000x128, .f32⟩
  | .hbm, ⟨22, _⟩ => ⟨S50000x128, .f32⟩
  | .hbm, ⟨23, _⟩ => ⟨S1x640000, .i32⟩
  | .hbm, ⟨24, _⟩ => ⟨S640000, .i32⟩
  | .hbm, ⟨25, _⟩ => ⟨S1x640000, .i32⟩
  | .hbm, ⟨26, _⟩ => ⟨S640000, .i32⟩
  | .hbm, ⟨27, _⟩ => ⟨S_, .i32⟩
  | .hbm, ⟨28, _⟩ => ⟨S640000, .i32⟩
  | .hbm, ⟨29, _⟩ => ⟨S640000, .i1⟩
  | .hbm, ⟨30, _⟩ => ⟨S_, .i32⟩
  | .hbm, ⟨31, _⟩ => ⟨S640000, .i32⟩
  | .hbm, ⟨32, _⟩ => ⟨S640000, .i32⟩
  | .hbm, ⟨33, _⟩ => ⟨S640000, .i32⟩
  | .hbm, ⟨34, _⟩ => ⟨S640000x1, .i32⟩
  | .hbm, ⟨35, _⟩ => ⟨S640000x128, .f32⟩
  | .hbm, ⟨36, _⟩ => ⟨S640000x128, .f32⟩
  | .hbm, ⟨37, _⟩ => ⟨S640000x128, .f32⟩
  | .hbm, ⟨38, _⟩ => ⟨S_, .f32⟩
  | .hbm, ⟨39, _⟩ => ⟨S50000x128, .f32⟩
  | .hbm, ⟨40, _⟩ => ⟨S640000x1, .i32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S_, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S1x640000, .i32⟩
  | .hbm, ⟨65, _⟩ => ⟨S640000, .i32⟩
  | .hbm, ⟨66, _⟩ => ⟨S1x640000, .i32⟩
  | .hbm, ⟨67, _⟩ => ⟨S640000, .i32⟩
  | .hbm, ⟨68, _⟩ => ⟨S_, .i32⟩
  | .hbm, ⟨69, _⟩ => ⟨S640000, .i32⟩
  | .hbm, ⟨70, _⟩ => ⟨S640000, .i1⟩
  | .hbm, ⟨71, _⟩ => ⟨S_, .i32⟩
  | .hbm, ⟨72, _⟩ => ⟨S640000, .i32⟩
  | .hbm, ⟨73, _⟩ => ⟨S640000, .i32⟩
  | .hbm, ⟨74, _⟩ => ⟨S640000, .i32⟩
  | .hbm, ⟨75, _⟩ => ⟨S640000x1, .i32⟩
  | .hbm, ⟨76, _⟩ => ⟨S640000x128, .f32⟩
  | .hbm, ⟨77, _⟩ => ⟨S640000x128, .f32⟩
  | .hbm, ⟨78, _⟩ => ⟨S640000x128, .f32⟩
  | .hbm, ⟨79, _⟩ => ⟨S_, .f32⟩
  | .hbm, ⟨80, _⟩ => ⟨S50000x128, .f32⟩
  | .hbm, ⟨81, _⟩ => ⟨S640000x1, .i32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call0_cst : Ref sig .tc := ⟨.hbm, 57, rfl⟩
abbrev main_call0_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_1 : Ref sig .tc := ⟨.hbm, 68, rfl⟩
abbrev main_v44 : Ref sig .tc := ⟨.hbm, 69, rfl⟩
abbrev main_v45 : Ref sig .tc := ⟨.hbm, 70, rfl⟩
abbrev main_c_2 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_3 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_cst : Ref sig .tc := ⟨.hbm, 98, rfl⟩
abbrev main_call1_v0 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf

class Facts : Prop extends Facts₀ where

variable [Facts]
-- ==== Proof.BlockMath.lean ====
/- One block of a layer at an index.

   At the extended reals a change of float format is the identity and a matrix product into a zero accumulator
   is the plain sum over the contracted axis.  So an entry (r, j) of what the kernel body stores is
     max ((lin x wa ba + lin g wconv bconv) + lin x wb bb * lin x wc bc) 0
   at (r, j), where  lin x w b (r, j) = (sum over k of x(r, k) * w(k, j)) + b(0, j),
   x is the block of node features and g the block of aggregated messages. -/
import proofs.«179761_j38422777430259_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-- Entry (r, k) of a block of rows, for the row of the block index `y`. -/
abbrev bRow (y : S5000x128.Idx) (k : Fin 128) : S5000x128.Idx := fun a => match a with
  | ⟨0, _⟩ => ⟨(y 0).val, (y 0).isLt⟩
  | ⟨1, _⟩ => ⟨k.val, k.isLt⟩
/-- Entry (k, j) of a weight matrix, for the column of the block index `y`. -/
abbrev bCol (y : S5000x128.Idx) (k : Fin 128) : S128x128.Idx := fun a => match a with
  | ⟨0, _⟩ => ⟨k.val, k.isLt⟩
  | ⟨1, _⟩ => ⟨(y 1).val, (y 1).isLt⟩
/-- Entry (0, j) of a bias row, for the column of the block index `y`. -/
abbrev bBias (y : S5000x128.Idx) : S1x128.Idx := fun a => match a with
  | ⟨0, _⟩ => ⟨0, Nat.one_pos⟩
  | ⟨1, _⟩ => ⟨(y 1).val, (y 1).isLt⟩

theorem lhs_blk_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_blk_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_blk_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_blk_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block of rows with a weight matrix, into zero: entry (r, j) is the sum over k of x(r, k) * w(k, j). -/
theorem matmul_blk_apply (x : FVec Ideal S5000x128 .bf16) (w : FVec Ideal S128x128 .bf16) (y : S5000x128.Idx) :
    matmul dot_S5000x128_S128x128_S5000x128_1_0_0_1_n_n none x w (constant S5000x128 .f32 0x00000000#32) y = ∑ k : Fin 128, x (bRow y k) * w (bCol y k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = bRow y k := funext fun a => Fin.ext (by
    match a with
    | ⟨0, _⟩ => exact lhs_blk_0 _ _
    | ⟨1, _⟩ => exact (lhs_blk_1 _ _).trans hk)
  have er : dot_S5000x128_S128x128_S5000x128_1_0_0_1_n_n.rhsIdx y ((ValueIdx.contrEquiv1 dot_S5000x128_S128x128_S5000x128_1_0_0_1_n_n 128 rfl rfl).symm k) = bCol y k := funext fun a => Fin.ext (by
    match a with
    | ⟨0, _⟩ => exact (rhs_blk_0 _ _).trans hk
    | ⟨1, _⟩ => exact rhs_blk_1 _ _)
  rw [el, er]

/-- A bias row spread over the block's rows: entry (r, j) is b(0, j). -/
theorem bias_blk_apply (b : Vec Ideal S1x128 .f32) (y : S5000x128.Idx) :
    broadcastTo S5000x128 (shapeCast S1x128 b shapeCasts_S1x128_S1x128) broadcasts_S1x128_S5000x128 y = b (bBias y) := by
  rw [shapeCast_self]
  exact broadcastTo_apply b broadcasts_S1x128_S5000x128 y (bBias y) (fun a => match a with
    | ⟨0, _⟩ => by show 0 = if (1 : Nat) = 1 then 0 else _; rw [if_pos rfl]
    | ⟨1, _⟩ => by show (y 1).val = if (128 : Nat) = 1 then 0 else _; rw [if_neg (by decide)]; rfl)

/-- One linear map of a block at an index. -/
def linB (x : Vec Ideal S5000x128 .f32) (w : Vec Ideal S128x128 .f32) (b : Vec Ideal S1x128 .f32) (y : S5000x128.Idx) : EReal :=
  (∑ k : Fin 128, x (bRow y k) * w (bCol y k)) + b (bBias y)

/-- The layer's value at an index of a block. -/
def layerB (x g : Vec Ideal S5000x128 .f32) (wa : Vec Ideal S128x128 .f32) (ba : Vec Ideal S1x128 .f32)
    (wb : Vec Ideal S128x128 .f32) (bb : Vec Ideal S1x128 .f32) (wc : Vec Ideal S128x128 .f32) (bc : Vec Ideal S1x128 .f32)
    (wv : Vec Ideal S128x128 .f32) (bv : Vec Ideal S1x128 .f32) (y : S5000x128.Idx) : EReal :=
  max ((linB x wa ba y + linB g wv bv y) + linB x wb bb y * linB x wc bc y) 0

theorem lin_apply (x : Vec Ideal S5000x128 .f32) (w : Vec Ideal S128x128 .f32) (b : Vec Ideal S1x128 .f32) (y : S5000x128.Idx) :
    (addf (matmul dot_S5000x128_S128x128_S5000x128_1_0_0_1_n_n none (truncf .bf16 x bitsLt_bf16_f32) (truncf .bf16 w bitsLt_bf16_f32) (constant S5000x128 .f32 0x00000000#32))
      (broadcastTo S5000x128 (shapeCast S1x128 b shapeCasts_S1x128_S1x128) broadcasts_S1x128_S5000x128) : FVec Ideal S5000x128 .f32) y = linB x w b y := by
  rw [addf_apply, matmul_blk_apply, bias_blk_apply]
  rfl

/-- What the first region's body stores, at an index. -/
theorem pay0_apply (x0 x1 : Vec Ideal S5000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (x8 : Vec Ideal S128x128 .f32) (x9 : Vec Ideal S1x128 .f32) (y : S5000x128.Idx) :
    k0_pay1 (k0_pay3 x0 x1 x2 x8 x3 x9) (k0_pay4 x0 x4 x6 x5 x7) y = layerB x0 x1 x2 x3 x4 x5 x6 x7 x8 x9 y := by
  unfold k0_pay1 k0_pay3 k0_pay4 k0_pay2 layerB
  simp only [shapeCast_self (s := S5000x128)]
  rw [maximumf_apply, addf_apply, addf_apply, mulf_apply, lin_apply, lin_apply, lin_apply, lin_apply]
  show max _ (Ideal.ofBits .f32 0x00000000#32) = _
  rw [Ideal.ofBits_zero_f32]

/-- What the second region's body stores, at an index: the same value, cut into other pieces. -/
theorem pay1_apply (x0 x1 : Vec Ideal S5000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (x8 : Vec Ideal S128x128 .f32) (x9 : Vec Ideal S1x128 .f32) (y : S5000x128.Idx) :
    k1_pay1 (k1_pay3 x0 x4 x5) (k1_pay4 x0 x6 x7) (k1_pay5 x0 x1 x2 x8 x3 x9) y = layerB x0 x1 x2 x3 x4 x5 x6 x7 x8 x9 y := by
  unfold k1_pay1 k1_pay3 k1_pay4 k1_pay5 k1_pay2 layerB
  simp only [shapeCast_self (s := S5000x128)]
  rw [maximumf_apply, addf_apply, mulf_apply, addf_apply, lin_apply, lin_apply, lin_apply, lin_apply]
  show max _ (Ideal.ofBits .f32 0x00000000#32) = _
  rw [Ideal.ofBits_zero_f32]

end Cert.KernelIdeal.Hand

end
-- ==== Proof.LayerArr.lean ====
/- A layer as one function of whole arrays, and a block of it.

   For node features X and aggregated messages G (one row per node), weights wa, wb, wc, wv and bias rows
   ba, bb, bc, bv the layer's output at (r, j) is
     max ((lin X wa ba + lin G wv bv) + lin X wb bb * lin X wc bc) 0      at (r, j),
   lin X w b (r, j) = (sum over k of X(r, k) * w(k, j)) + b(0, j).
   Grid point t of a region handles rows 5000 t ... 5000 t + 4999: the value of a block at its row r is the
   layer's value at row 5000 t + r, because an output row depends on that row of X and of G only. -/
import proofs.«179761_j38422777430259_1_alg».proof.Proof.BlockMath

noncomputable section

namespace Cert.KernelIdeal.Hand

open Cert.KernelIdeal Cert.KernelIdeal.Gen
open Idealize.ShloMosaic Idealize.ShloMosaic.ValueIdx

/-- Entry (r, k) of an array of node rows, for the row of the array index `i`. -/
abbrev aRow (i : S50000x128.Idx) (k : Fin 128) : S50000x128.Idx := fun a => match a with
  | ⟨0, _⟩ => ⟨(i 0).val, (i 0).isLt⟩
  | ⟨1, _⟩ => ⟨k.val, k.isLt⟩
/-- Entry (k, j) of a weight matrix, for the column of the array index `i`. -/
abbrev aCol (i : S50000x128.Idx) (k : Fin 128) : S128x128.Idx := fun a => match a with
  | ⟨0, _⟩ => ⟨k.val, k.isLt⟩
  | ⟨1, _⟩ => ⟨(i 1).val, (i 1).isLt⟩
/-- Entry (0, j) of a bias row, for the column of the array index `i`. -/
abbrev aBias (i : S50000x128.Idx) : S1x128.Idx := fun a => match a with
  | ⟨0, _⟩ => ⟨0, Nat.one_pos⟩
  | ⟨1, _⟩ => ⟨(i 1).val, (i 1).isLt⟩

/-- One linear map of the whole array at an index. -/
def linA (X : Vec Ideal S50000x128 .f32) (w : Vec Ideal S128x128 .f32) (b : Vec Ideal S1x128 .f32) (i : S50000x128.Idx) : EReal :=
  (∑ k : Fin 128, X (aRow i k) * w (aCol i k)) + b (aBias i)

/-- The layer, as a function of whole arrays. -/
def layerA (X G : Vec Ideal S50000x128 .f32) (wa : Vec Ideal S128x128 .f32) (ba : Vec Ideal S1x128 .f32)
    (wb : Vec Ideal S128x128 .f32) (bb : Vec Ideal S1x128 .f32) (wc : Vec Ideal S128x128 .f32) (bc : Vec Ideal S1x128 .f32)
    (wv : Vec Ideal S128x128 .f32) (bv : Vec Ideal S1x128 .f32) : Vec Ideal S50000x128 .f32 :=
  fun i => max ((linA X wa ba i + linA G wv bv i) + linA X wb bb i * linA X wc bc i) 0

/-- Row `r` of block `t` is row `5000 t + r` of the array. -/
def rowAt (t : Fin 10) (y : S5000x128.Idx) : S50000x128.Idx := fun a => match a with
  | ⟨0, _⟩ => ⟨t.val * 5000 + (y 0).val, by
      have h0 : (y 0).val < 5000 := (y 0).isLt
      have ht : t.val < 10 := t.isLt
      show t.val * 5000 + (y 0).val < 50000
      omega⟩
  | ⟨1, _⟩ => ⟨(y 1).val, (y 1).isLt⟩

/-- A linear map of block `t` of the rows is block `t` of the linear map of all rows. -/
theorem linB_eq_linA (X : Vec Ideal S50000x128 .f32) (w : Vec Ideal S128x128 .f32) (b : Vec Ideal S1x128 .f32)
    (x : Vec Ideal S5000x128 .f32) (t : Fin 10) (hx : ∀ y : S5000x128.Idx, x y = X (rowAt t y)) (y : S5000x128.Idx) :
    linB x w b y = linA X w b (rowAt t y) := by
  unfold linB linA
  refine congrArg₂ (· + ·) (Finset.sum_congr rfl fun k _ => ?_) rfl
  rw [hx]
  rfl

/-- Block `t` of the layer, from block `t` of the features and of the messages. -/
theorem layerB_eq_layerA (X G : Vec Ideal S50000x128 .f32) (wa : Vec Ideal S128x128 .f32) (ba : Vec Ideal S1x128 .f32)
    (wb : Vec Ideal S128x128 .f32) (bb : Vec Ideal S1x128 .f32) (wc : Vec Ideal S128x128 .f32) (bc : Vec Ideal S1x128 .f32)
    (wv : Vec Ideal S128x128 .f32) (bv : Vec Ideal S1x128 .f32)
    (x g : Vec Ideal S5000x128 .f32) (t : Fin 10)
    (hx : ∀ y : S5000x128.Idx, x y = X (rowAt t y)) (hg : ∀ y : S5000x128.Idx, g y = G (rowAt t y)) (y : S5000x128.Idx) :
    layerB x g wa ba wb bb wc bc wv bv y = layerA X G wa ba wb bb wc bc wv bv (rowAt t y) := by
  unfold layerB layerA
  rw [linB_eq_linA X wa ba x t hx, linB_eq_linA G wv bv g t hg, linB_eq_linA X wb bb x t hx, linB_eq_linA X wc bc x t hx]

end Cert.KernelIdeal.Hand

end
-- ==== Proof.OutBlock.lean ====
/- What each region's body leaves in the output's staging buffer, at an index.

   The body loads every staging buffer whole and stores its result whole, so the buffer after the body is the
   body's stored value: the layer's value `layerB` of the loaded blocks. -/
import proofs.«179761_j38422777430259_1_alg».proof.Proof.Gen.KernelIdeal.Frame
import proofs.«179761_j38422777430259_1_alg».proof.Proof.BlockMath

noncomputable section

namespace Cert.KernelIdeal.Hand

open Cert.KernelIdeal Cert.KernelIdeal.Gen
open Idealize.ShloMosaic

theorem zero_offsets : (![0, 0] : Fin 2 → Nat) = fun _ => 0 := funext fun a => by fin_cases a <;> rfl

/-- Region 0: the output's buffer after the body, at an index. -/
theorem out0_apply (x0 x1 : Vec Ideal S5000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (x8 : Vec Ideal S128x128 .f32) (x9 : Vec Ideal S1x128 .f32) (y : S5000x128.Idx) :
    out0_10 (F := Ideal) x0 x1 x2 x3 x4 x5 x6 x7 x8 x9 y = layerB x0 x1 x2 x3 x4 x5 x6 x7 x8 x9 y := by
  unfold out0_10
  rw [View.canon_unit_zero zero_offsets]
  simp only [View.ld_unit_zero (S := S5000x128) zero_offsets, View.ld_unit_zero (S := S128x128) zero_offsets, View.ld_unit_zero (S := S1x128) zero_offsets]
  exact pay0_apply x0 x1 x2 x3 x4 x5 x6 x7 x8 x9 y

/-- Region 1: the output's buffer after the body, at an index. -/
theorem out1_apply (x0 x1 : Vec Ideal S5000x128 .f32) (x2 : Vec Ideal S128x128 .f32) (x3 : Vec Ideal S1x128 .f32)
    (x4 : Vec Ideal S128x128 .f32) (x5 : Vec Ideal S1x128 .f32) (x6 : Vec Ideal S128x128 .f32) (x7 : Vec Ideal S1x128 .f32)
    (x8 : Vec Ideal S128x128 .f32) (x9 : Vec Ideal S1x128 .f32) (y : S5000x128.Idx) :
    out1_10 (F := Ideal) x0 x1 x2 x3 x4 x5 x6 x7 x8 x9 y = layerB x0 x1 x2 x3 x4 x5 x6 x7 x8 x9 y := by
  unfold out1_10
  rw [View.canon_unit_zero zero_offsets]
  simp only [View.ld_unit_zero (S := S5000x128) zero_offsets, View.ld_unit_zero (S := S128x128) zero_offsets, View.ld_unit_zero (S := S1x128) zero_offsets]
  exact pay1_apply x0 x1 x2 x3 x4 x5 x6 x7 x8 x9 y

end Cert.KernelIdeal.Hand

end
-- ==== Proof.Region0.lean ====
/- Region 0's output array, for any contents `V` of the buffers at the region's entry.

   Grid point t fetches rows 5000 t ... 5000 t + 4999 of the features and of the aggregated messages and the whole
   of every weight and bias, and writes back rows 5000 t ... 5000 t + 4999 of the output.  The ten points' blocks
   tile the output, so after the region the output array is the layer `layerA` of the arrays the region found. -/
import proofs.«179761_j38422777430259_1_alg».proof.Proof.Gen.KernelIdeal.Frame
import proofs.«179761_j38422777430259_1_alg».proof.Proof.LayerArr
import proofs.«179761_j38422777430259_1_alg».proof.Proof.OutBlock

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The grid point as a number below ten. -/
def pt0 (t : Fin cfg0.N) : Fin 10 := ⟨t.val, lt_of_lt_of_eq t.isLt (show cfg0.N = 10 from N_0)⟩

/-- The features' block at point t is rows 5000 t ... 5000 t + 4999 of the features. -/
theorem idx0_0 : ∀ t : Fin cfg0.N, win0_0.index t (0 : Fin 2) = t.val ∧ win0_0.index t (1 : Fin 2) = 0 :=
  (by decide +kernel : ∀ t : Fin grid0.N, _)
theorem rows0_0 (c : Dev nD) (t : Fin cfg0.N) (j : S5000x128.Idx) :
    (iblk0 V c 0 t : Vec Ideal S5000x128 .f32) j = (V c main_arg0 : Vec Ideal S50000x128 .f32) (rowAt (pt0 t) j) := by
  obtain ⟨e0, e1⟩ := idx0_0 t
  unfold iblk0
  rw [View.read_apply]
  show V c main_arg0 _ = V c main_arg0 _
  congr 1
  funext a
  apply Fin.ext
  match a with
  | ⟨0, _⟩ => show win0_0.index t (0 : Fin 2) * 5000 + 1 * (j 0).val = t.val * 5000 + (j 0).val; rw [e0]; omega
  | ⟨1, _⟩ => show win0_0.index t (1 : Fin 2) * 128 + 1 * (j 1).val = (j 1).val; rw [e1]; omega

/-- The messages' block at point t is rows 5000 t ... 5000 t + 4999 of the messages. -/
theorem idx0_1 : ∀ t : Fin cfg0.N, win0_1.index t (0 : Fin 2) = t.val ∧ win0_1.index t (1 : Fin 2) = 0 :=
  (by decide +kernel : ∀ t : Fin grid0.N, _)
theorem rows0_1 (c : Dev nD) (t : Fin cfg0.N) (j : S5000x128.Idx) :
    (iblk0 V c 1 t : Vec Ideal S5000x128 .f32) j = (V c main_v15 : Vec Ideal S50000x128 .f32) (rowAt (pt0 t) j) := by
  obtain ⟨e0, e1⟩ := idx0_1 t
  unfold iblk0
  rw [View.read_apply]
  show V c main_v15 _ = V c main_v15 _
  congr 1
  funext a
  apply Fin.ext
  match a with
  | ⟨0, _⟩ => show win0_1.index t (0 : Fin 2) * 5000 + 1 * (j 0).val = t.val * 5000 + (j 0).val; rw [e0]; omega
  | ⟨1, _⟩ => show win0_1.index t (1 : Fin 2) * 128 + 1 * (j 1).val = (j 1).val; rw [e1]; omega

/-- Window 2 keeps block (0, 0) at every point and its block is the whole array: its block IS its array. -/
theorem idx0_2 : ∀ t : Fin cfg0.N, win0_2.index t (0 : Fin 2) = 0 ∧ win0_2.index t (1 : Fin 2) = 0 :=
  (by decide +kernel : ∀ t : Fin grid0.N, _)
theorem whole0_2 (c : Dev nD) (t : Fin cfg0.N) : (iblk0 V c 2 t : Vec Ideal S128x128 .f32) = V c main_arg3 := by
  obtain ⟨e0, e1⟩ := idx0_2 t
  funext j
  unfold iblk0
  rw [View.read_apply]
  show V c main_arg3 _ = V c main_arg3 j
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- Window 3 keeps block (0, 0) at every point and its block is the whole array: its block IS its array. -/
theorem idx0_3 : ∀ t : Fin cfg0.N, win0_3.index t (0 : Fin 2) = 0 ∧ win0_3.index t (1 : Fin 2) = 0 :=
  (by decide +kernel : ∀ t : Fin grid0.N, _)
theorem whole0_3 (c : Dev nD) (t : Fin cfg0.N) : (iblk0 V c 3 t : Vec Ideal S1x128 .f32) = V c main_v16 := by
  obtain ⟨e0, e1⟩ := idx0_3 t
  funext j
  unfold iblk0
  rw [View.read_apply]
  show V c main_v16 _ = V c main_v16 j
  congr 1
  funext a
  apply Fin.ext
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- Window 4 keeps block (0, 0) at every point and its block is the whole array: its block IS its array. -/
theorem idx0_4 : ∀ t : Fin cfg0.N, win0_4.index t (0 : Fin 2) = 0 ∧ win0_4.index t (1 : Fin 2) = 0 :=
  (by decide +kernel : ∀ t : Fin grid0.N, _)
theorem whole0_4 (c : Dev nD) (t : Fin cfg0.N) : (iblk0 V c 4 t : Vec Ideal S128x128 .f32) = V c main_arg5 := by
  obtain ⟨e0, e1⟩ := idx0_4 t
  funext j
  unfold iblk0
  rw [View.read_apply]
  show V c main_arg5 _ = V c main_arg5 j
  congr 1
  funext a
  apply Fin.ext
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

/-- Window 5 keeps block (0, 0) at every point and its block is the whole array: its block IS its array. -/
theorem idx0_5 : ∀ t : Fin cfg0.N, win0_5.index t (0 : Fin 2) = 0 ∧ win0_5.index t (1 : Fin 2) = 0 :=
  (by decide +kernel : ∀ t : Fin grid0.N, _)
theorem whole0_5 (c : Dev nD) (t : Fin cfg0.N) : (iblk0 V c 5 t : Vec Ideal S1x128 .f32) = V c main_v17 := by
  obtain ⟨e0, e1⟩ := idx0_5 t
  funext j
  unfold iblk0
  rw [View.read_apply]
  show V c main_v17 _ = V c main_v17 j
  congr 1
  funext a
  apply Fin.ext
  match a with
  | ⟨0, _⟩ => show win0_5.index t (0 : Fin 2) * 1 + 1 * (j 0).val = (j 0).val; rw [e0]; omega
  | ⟨1, _⟩ => show win0_5.index t (1 : Fin 2) * 128 + 1 * (j 1).val = (j 1).val; rw [e1]; omega

/-- Window 6 keeps block (0, 0) at every point and its block is the whole array: its block IS its array. -/
theorem idx0_6 : ∀ t : Fin cfg0.N, win0_6.index t (0 : Fin 2) = 0 ∧ win0_6.index t (1 : Fin 2) = 0 :=
  (by decide +kernel : ∀ t : Fin grid0.N, _)
theorem whole0_6 (c : Dev nD) (t : Fin cfg0.N) : (iblk0 V c 6 t : Vec Ideal S128x128 .f32) = V c main_arg7 := by
  obtain ⟨e0, e1⟩ := idx0_6 t
  funext j
  unfold iblk0
  rw [View.read_apply]
  show V c main_arg7 _ = V c main_arg7 j
  congr 1
  funext a
  apply Fin.ext
  match a with
  | ⟨0, _⟩ => show win0_6.index t (0 : Fin 2) * 128 + 1 * (j 0).val = (j 0).val; rw [e0]; omega
  | ⟨1, _⟩ => show win0_6.index t (1 : Fin 2) * 128 + 1 * (j 1).val = (j 1).val; rw [e1]; omega

/-- Window 7 keeps block (0, 0) at every point and its block is the whole array: its block IS its array. -/
theorem idx0_7 : ∀ t : Fin cfg0.N, win0_7.index t (0 : Fin 2) = 0 ∧ win0_7.index t (1 : Fin 2) = 0 :=
  (by decide +kernel : ∀ t : Fin grid0.N, _)
theorem whole0_7 (c : Dev nD) (t : Fin cfg0.N) : (iblk0 V c 7 t : Vec Ideal S1x128 .f32) = V c main_v18 := by
  obtain ⟨e0, e1⟩ := idx0_7 t
  funext j
  unfold iblk0
  rw [View.read_apply]
  show V c main_v18 _ = V c main_v18 j
  congr 1
  funext a
  apply Fin.ext
  match a with
  | ⟨0, _⟩ => show win0_7.index t (0 : Fin 2) * 1 + 1 * (j 0).val = (j 0).val; rw [e0]; omega
  | ⟨1, _⟩ => show win0_7.index t (1 : Fin 2) * 128 + 1 * (j 1).val = (j 1).val; rw [e1]; omega

/-- Window 8 keeps block (0, 0) at every point and its block is the whole array: its block IS its array. -/
theorem idx0_8 : ∀ t : Fin cfg0.N, win0_8.index t (0 : Fin 2) = 0 ∧ win0_8.index t (1 : Fin 2) = 0 :=
  (by decide +kernel : ∀ t : Fin grid0.N, _)
theorem whole0_8 (c : Dev nD) (t : Fin cfg0.N) : (iblk0 V c 8 t : Vec Ideal S128x128 .f32) = V c main_arg9 := by
  obtain ⟨e0, e1⟩ := idx0_8 t
  funext j
  unfold iblk0
  rw [View.read_apply]
  show V c main_arg9 _ = V c main_arg9 j
  congr 1
  funext a
  apply Fin.ext
  match a with
  | ⟨0, _⟩ => show win0_8.index t (0 : Fin 2) * 128 + 1 * (j 0).val = (j 0).val; rw [e0]; omega
  | ⟨1, _⟩ => show win0_8.index t (1 : Fin 2) * 128 + 1 * (j 1).val = (j 1).val; rw [e1]; omega

/-- Window 9 keeps block (0, 0) at every point and its block is the whole array: its block IS its array. -/
theorem idx0_9 : ∀ t : Fin cfg0.N, win0_9.index t (0 : Fin 2) = 0 ∧ win0_9.index t (1 : Fin 2) = 0 :=
  (by decide +kernel : ∀ t : Fin grid0.N, _)
theorem whole0_9 (c : Dev nD) (t : Fin cfg0.N) : (iblk0 V c 9 t : Vec Ideal S1x128 .f32) = V c main_v19 := by
  obtain ⟨e0, e1⟩ := idx0_9 t
  funext j
  unfold iblk0
  rw [View.read_apply]
  show V c main_v19 _ = V c main_v19 j
  congr 1
  funext a
  apply Fin.ext
  match a with
  | ⟨0, _⟩ => show win0_9.index t (0 : Fin 2) * 1 + 1 * (j 0).val = (j 0).val; rw [e0]; omega
  | ⟨1, _⟩ => show win0_9.index t (1 : Fin 2) * 128 + 1 * (j 1).val = (j 1).val; rw [e1]; omega

/-- The output's block at point t is rows 5000 t ... 5000 t + 4999. -/
theorem idx0_10 : ∀ t : Fin cfg0.N, win0_10.index t (0 : Fin 2) = t.val ∧ win0_10.index t (1 : Fin 2) = 0 :=
  (by decide +kernel : ∀ t : Fin grid0.N, _)

/-- What point t writes back is block t of the layer of the arrays the region found. -/
theorem flushed0_eq (c : Dev nD) (t : Fin cfg0.N) :
    (dat0 V c).flushed 10 t = ((cfg0.win 10).blk t).view.read (Elt Ideal) (layerA (V c main_arg0) (V c main_v15) (V c main_arg3) (V c main_v16) (V c main_arg5) (V c main_v17) (V c main_arg7) (V c main_v18) (V c main_arg9) (V c main_v19)) := by
  show (cfg0.win 10).cut (grid0.coords t) ((dat0 V c).after 10 t) = _
  rw [after0_10]
  obtain ⟨e0, e1⟩ := idx0_10 t
  funext y
  rw [View.read_apply]
  have e : ((cfg0.win 10).blk t).view.emb y = rowAt (pt0 t) y := funext fun a => Fin.ext (by
    match a with
    | ⟨0, _⟩ => show win0_10.index t (0 : Fin 2) * 5000 + 1 * (y 0).val = t.val * 5000 + (y 0).val; rw [e0]; omega
    | ⟨1, _⟩ => show win0_10.index t (1 : Fin 2) * 128 + 1 * (y 1).val = (y 1).val; rw [e1]; omega)
  rw [e, whole0_2 V c t, whole0_3 V c t, whole0_4 V c t, whole0_5 V c t, whole0_6 V c t, whole0_7 V c t, whole0_8 V c t, whole0_9 V c t]
  refine (out0_apply (iblk0 V c 0 t) (iblk0 V c 1 t) (V c main_arg3) (V c main_v16) (V c main_arg5) (V c main_v17) (V c main_arg7) (V c main_v18) (V c main_arg9) (V c main_v19) y).trans ?_
  exact layerB_eq_layerA (V c main_arg0) (V c main_v15) (V c main_arg3) (V c main_v16) (V c main_arg5) (V c main_v17) (V c main_arg7) (V c main_v18) (V c main_arg9) (V c main_v19)
    (iblk0 V c 0 t) (iblk0 V c 1 t) (pt0 t) (rows0_0 V c t) (rows0_1 V c t) y

/-- Every row of the output is in the block of the point `row / 5000`. -/
theorem cover0 (i : S50000x128.Idx) :
    ∃ t : Fin cfg0.N, (cfg0.win 10).flush t = true ∧ i ∈ ((cfg0.win 10).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨e0, e1⟩ := idx0_10 t
  have ht : t.val = (i 0).val / 5000 := rfl
  refine ⟨t, flush0_10 t, ?_⟩
  show i ∈ ((View.whole main_v20).slice (win0_10.rect t)).set
  rw [View.set_slice_whole, Rect.mem_set_unit]
  intro a
  match a with
  | ⟨0, _⟩ =>
    show win0_10.index t (0 : Fin 2) * 5000 ≤ (i 0).val ∧ (i 0).val < win0_10.index t (0 : Fin 2) * 5000 + 5000
    rw [e0, ht]; omega
  | ⟨1, _⟩ =>
    show win0_10.index t (1 : Fin 2) * 128 ≤ (i 1).val ∧ (i 1).val < win0_10.index t (1 : Fin 2) * 128 + 128
    rw [e1]; omega

/-- After the region its output array is the layer of the arrays the region found. -/
theorem region0_value (c : Dev nD) : (dat0 V c).arrAt 10 cfg0.N = layerA (V c main_arg0) (V c main_v15) (V c main_arg3) (V c main_v16) (V c main_arg5) (V c main_v17) (V c main_arg7) (V c main_v18) (V c main_arg9) (V c main_v19) :=
  (dat0 V c).arrAt_eq_of_cover 10 (layerA (V c main_arg0) (V c main_v15) (V c main_arg3) (V c main_v16) (V c main_arg5) (V c main_v17) (V c main_arg7) (V c main_v18) (V c main_arg9) (V c main_v19)) (fun t _ => flushed0_eq V c t) (cover0)

end Cert.KernelIdeal.Hand

end
-- ==== Proof.Region1.lean ====
/- Region 1's output array, for any contents `V` of the buffers at the region's entry.

   Grid point t fetches rows 5000 t ... 5000 t + 4999 of the features and of the aggregated messages and the whole
   of every weight and bias, and writes back rows 5000 t ... 5000 t + 4999 of the output.  The ten points' blocks
   tile the output, so after the region the output array is the layer `layerA` of the arrays the region found. -/
import proofs.«179761_j38422777430259_1_alg».proof.Proof.Gen.KernelIdeal.Frame
import proofs.«179761_j38422777430259_1_alg».proof.Proof.LayerArr
import proofs.«179761_j38422777430259_1_alg».proof.Proof.OutBlock

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The grid point as a number below ten. -/
def pt1 (t : Fin cfg1.N) : Fin 10 := ⟨t.val, lt_of_lt_of_eq t.isLt (show cfg1.N = 10 from N_1)⟩

/-- The features' block at point t is rows 5000 t ... 5000 t + 4999 of the features. -/
theorem idx1_0 : ∀ t : Fin cfg1.N, win1_0.index t (0 : Fin 2) = t.val ∧ win1_0.index t (1 : Fin 2) = 0 :=
  (by decide +kernel : ∀ t : Fin grid1.N, _)
theorem rows1_0 (c : Dev nD) (t : Fin cfg1.N) (j : S5000x128.Idx) :
    (iblk1 V c 0 t : Vec Ideal S5000x128 .f32) j = (V c main_v20 : Vec Ideal S50000x128 .f32) (rowAt (pt1 t) j) := by
  obtain ⟨e0, e1⟩ := idx1_0 t
  unfold iblk1
  rw [View.read_apply]
  show V c main_v20 _ = V c main_v20 _
  congr 1
  funext a
  apply Fin.ext
  match a with
  | ⟨0, _⟩ => show win1_0.index t (0 : Fin 2) * 5000 + 1 * (j 0).val = t.val * 5000 + (j 0).val; rw [e0]; omega
  | ⟨1, _⟩ => show win1_0.index t (1 : Fin 2) * 128 + 1 * (j 1).val = (j 1).val; rw [e1]; omega

/-- The messages' block at point t is rows 5000 t ... 5000 t + 4999 of the messages. -/
theorem idx1_1 : ∀ t : Fin cfg1.N, win1_1.index t (0 : Fin 2) = t.val ∧ win1_1.index t (1 : Fin 2) = 0 :=
  (by decide +kernel : ∀ t : Fin grid1.N, _)
theorem rows1_1 (c : Dev nD) (t : Fin cfg1.N) (j : S5000x128.Idx) :
    (iblk1 V c 1 t : Vec Ideal S5000x128 .f32) j = (V c main_v32 : Vec Ideal S50000x128 .f32) (rowAt (pt1 t) j) := by
  obtain ⟨e0, e1⟩ := idx1_1 t
  unfold iblk1
  rw [View.read_apply]
  show V c main_v32 _ = V c main_v32 _
  congr 1
  funext a
  apply Fin.ext
  match a with
  | ⟨0, _⟩ => show win1_1.index t (0 : Fin 2) * 5000 + 1 * (j 0).val = t.val * 5000 + (j 0).val; rw [e0]; omega
  | ⟨1, _⟩ => show win1_1.index t (1 : Fin 2) * 128 + 1 * (j 1).val = (j 1).val; rw [e1]; omega

/-- Window 2 keeps block (0, 0) at every point and its block is the whole array: its block IS its array. -/
theorem idx1_2 : ∀ t : Fin cfg1.N, win1_2.index t (0 : Fin 2) = 0 ∧ win1_2.index t (1 : Fin 2) = 0 :=
  (by decide +kernel : ∀ t : Fin grid1.N, _)
theorem whole1_2 (c : Dev nD) (t : Fin cfg1.N) : (iblk1 V c 2 t : Vec Ideal S128x128 .f32) = V c main_arg11 := by
  obtain ⟨e0, e1⟩ := idx1_2 t
  funext j
  unfold iblk1
  rw [View.read_apply]
  show V c main_arg11 _ = V c main_arg11 j
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

/-- Window 3 keeps block (0, 0) at every point and its block is the whole array: its block IS its array. -/
theorem idx1_3 : ∀ t : Fin cfg1.N, win1_3.index t (0 : Fin 2) = 0 ∧ win1_3.index t (1 : Fin 2) = 0 :=
  (by decide +kernel : ∀ t : Fin grid1.N, _)
theorem whole1_3 (c : Dev nD) (t : Fin cfg1.N) : (iblk1 V c 3 t : Vec Ideal S1x128 .f32) = V c main_v33 := by
  obtain ⟨e0, e1⟩ := idx1_3 t
  funext j
  unfold iblk1
  rw [View.read_apply]
  show V c main_v33 _ = V c main_v33 j
  congr 1
  funext a
  apply Fin.ext
  match a with
  | ⟨0, _⟩ => show win1_3.index t (0 : Fin 2) * 1 + 1 * (j 0).val = (j 0).val; rw [e0]; omega
  | ⟨1, _⟩ => show win1_3.index t (1 : Fin 2) * 128 + 1 * (j 1).val = (j 1).val; rw [e1]; omega

/-- Window 4 keeps block (0, 0) at every point and its block is the whole array: its block IS its array. -/
theorem idx1_4 : ∀ t : Fin cfg1.N, win1_4.index t (0 : Fin 2) = 0 ∧ win1_4.index t (1 : Fin 2) = 0 :=
  (by decide +kernel : ∀ t : Fin grid1.N, _)
theorem whole1_4 (c : Dev nD) (t : Fin cfg1.N) : (iblk1 V c 4 t : Vec Ideal S128x128 .f32) = V c main_arg13 := by
  obtain ⟨e0, e1⟩ := idx1_4 t
  funext j
  unfold iblk1
  rw [View.read_apply]
  show V c main_arg13 _ = V c main_arg13 j
  congr 1
  funext a
  apply Fin.ext
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

/-- Window 5 keeps block (0, 0) at every point and its block is the whole array: its block IS its array. -/
theorem idx1_5 : ∀ t : Fin cfg1.N, win1_5.index t (0 : Fin 2) = 0 ∧ win1_5.index t (1 : Fin 2) = 0 :=
  (by decide +kernel : ∀ t : Fin grid1.N, _)
theorem whole1_5 (c : Dev nD) (t : Fin cfg1.N) : (iblk1 V c 5 t : Vec Ideal S1x128 .f32) = V c main_v34 := by
  obtain ⟨e0, e1⟩ := idx1_5 t
  funext j
  unfold iblk1
  rw [View.read_apply]
  show V c main_v34 _ = V c main_v34 j
  congr 1
  funext a
  apply Fin.ext
  match a with
  | ⟨0, _⟩ => show win1_5.index t (0 : Fin 2) * 1 + 1 * (j 0).val = (j 0).val; rw [e0]; omega
  | ⟨1, _⟩ => show win1_5.index t (1 : Fin 2) * 128 + 1 * (j 1).val = (j 1).val; rw [e1]; omega

/-- Window 6 keeps block (0, 0) at every point and its block is the whole array: its block IS its array. -/
theorem idx1_6 : ∀ t : Fin cfg1.N, win1_6.index t (0 : Fin 2) = 0 ∧ win1_6.index t (1 : Fin 2) = 0 :=
  (by decide +kernel : ∀ t : Fin grid1.N, _)
theorem whole1_6 (c : Dev nD) (t : Fin cfg1.N) : (iblk1 V c 6 t : Vec Ideal S128x128 .f32) = V c main_arg15 := by
  obtain ⟨e0, e1⟩ := idx1_6 t
  funext j
  unfold iblk1
  rw [View.read_apply]
  show V c main_arg15 _ = V c main_arg15 j
  congr 1
  funext a
  apply Fin.ext
  match a with
  | ⟨0, _⟩ => show win1_6.index t (0 : Fin 2) * 128 + 1 * (j 0).val = (j 0).val; rw [e0]; omega
  | ⟨1, _⟩ => show win1_6.index t (1 : Fin 2) * 128 + 1 * (j 1).val = (j 1).val; rw [e1]; omega

/-- Window 7 keeps block (0, 0) at every point and its block is the whole array: its block IS its array. -/
theorem idx1_7 : ∀ t : Fin cfg1.N, win1_7.index t (0 : Fin 2) = 0 ∧ win1_7.index t (1 : Fin 2) = 0 :=
  (by decide +kernel : ∀ t : Fin grid1.N, _)
theorem whole1_7 (c : Dev nD) (t : Fin cfg1.N) : (iblk1 V c 7 t : Vec Ideal S1x128 .f32) = V c main_v35 := by
  obtain ⟨e0, e1⟩ := idx1_7 t
  funext j
  unfold iblk1
  rw [View.read_apply]
  show V c main_v35 _ = V c main_v35 j
  congr 1
  funext a
  apply Fin.ext
  match a with
  | ⟨0, _⟩ => show win1_7.index t (0 : Fin 2) * 1 + 1 * (j 0).val = (j 0).val; rw [e0]; omega
  | ⟨1, _⟩ => show win1_7.index t (1 : Fin 2) * 128 + 1 * (j 1).val = (j 1).val; rw [e1]; omega

/-- Window 8 keeps block (0, 0) at every point and its block is the whole array: its block IS its array. -/
theorem idx1_8 : ∀ t : Fin cfg1.N, win1_8.index t (0 : Fin 2) = 0 ∧ win1_8.index t (1 : Fin 2) = 0 :=
  (by decide +kernel : ∀ t : Fin grid1.N, _)
theorem whole1_8 (c : Dev nD) (t : Fin cfg1.N) : (iblk1 V c 8 t : Vec Ideal S128x128 .f32) = V c main_arg17 := by
  obtain ⟨e0, e1⟩ := idx1_8 t
  funext j
  unfold iblk1
  rw [View.read_apply]
  show V c main_arg17 _ = V c main_arg17 j
  congr 1
  funext a
  apply Fin.ext
  match a with
  | ⟨0, _⟩ => show win1_8.index t (0 : Fin 2) * 128 + 1 * (j 0).val = (j 0).val; rw [e0]; omega
  | ⟨1, _⟩ => show win1_8.index t (1 : Fin 2) * 128 + 1 * (j 1).val = (j 1).val; rw [e1]; omega

/-- Window 9 keeps block (0, 0) at every point and its block is the whole array: its block IS its array. -/
theorem idx1_9 : ∀ t : Fin cfg1.N, win1_9.index t (0 : Fin 2) = 0 ∧ win1_9.index t (1 : Fin 2) = 0 :=
  (by decide +kernel : ∀ t : Fin grid1.N, _)
theorem whole1_9 (c : Dev nD) (t : Fin cfg1.N) : (iblk1 V c 9 t : Vec Ideal S1x128 .f32) = V c main_v36 := by
  obtain ⟨e0, e1⟩ := idx1_9 t
  funext j
  unfold iblk1
  rw [View.read_apply]
  show V c main_v36 _ = V c main_v36 j
  congr 1
  funext a
  apply Fin.ext
  match a with
  | ⟨0, _⟩ => show win1_9.index t (0 : Fin 2) * 1 + 1 * (j 0).val = (j 0).val; rw [e0]; omega
  | ⟨1, _⟩ => show win1_9.index t (1 : Fin 2) * 128 + 1 * (j 1).val = (j 1).val; rw [e1]; omega

/-- The output's block at point t is rows 5000 t ... 5000 t + 4999. -/
theorem idx1_10 : ∀ t : Fin cfg1.N, win1_10.index t (0 : Fin 2) = t.val ∧ win1_10.index t (1 : Fin 2) = 0 :=
  (by decide +kernel : ∀ t : Fin grid1.N, _)

/-- What point t writes back is block t of the layer of the arrays the region found. -/
theorem flushed1_eq (c : Dev nD) (t : Fin cfg1.N) :
    (dat1 V c).flushed 10 t = ((cfg1.win 10).blk t).view.read (Elt Ideal) (layerA (V c main_v20) (V c main_v32) (V c main_arg11) (V c main_v33) (V c main_arg13) (V c main_v34) (V c main_arg15) (V c main_v35) (V c main_arg17) (V c main_v36)) := by
  show (cfg1.win 10).cut (grid1.coords t) ((dat1 V c).after 10 t) = _
  rw [after1_10]
  obtain ⟨e0, e1⟩ := idx1_10 t
  funext y
  rw [View.read_apply]
  have e : ((cfg1.win 10).blk t).view.emb y = rowAt (pt1 t) y := funext fun a => Fin.ext (by
    match a with
    | ⟨0, _⟩ => show win1_10.index t (0 : Fin 2) * 5000 + 1 * (y 0).val = t.val * 5000 + (y 0).val; rw [e0]; omega
    | ⟨1, _⟩ => show win1_10.index t (1 : Fin 2) * 128 + 1 * (y 1).val = (y 1).val; rw [e1]; omega)
  rw [e, whole1_2 V c t, whole1_3 V c t, whole1_4 V c t, whole1_5 V c t, whole1_6 V c t, whole1_7 V c t, whole1_8 V c t, whole1_9 V c t]
  refine (out1_apply (iblk1 V c 0 t) (iblk1 V c 1 t) (V c main_arg11) (V c main_v33) (V c main_arg13) (V c main_v34) (V c main_arg15) (V c main_v35) (V c main_arg17) (V c main_v36) y).trans ?_
  exact layerB_eq_layerA (V c main_v20) (V c main_v32) (V c main_arg11) (V c main_v33) (V c main_arg13) (V c main_v34) (V c main_arg15) (V c main_v35) (V c main_arg17) (V c main_v36)
    (iblk1 V c 0 t) (iblk1 V c 1 t) (pt1 t) (rows1_0 V c t) (rows1_1 V c t) y

/-- Every row of the output is in the block of the point `row / 5000`. -/
theorem cover1 (i : S50000x128.Idx) :
    ∃ t : Fin cfg1.N, (cfg1.win 10).flush t = true ∧ i ∈ ((cfg1.win 10).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨e0, e1⟩ := idx1_10 t
  have ht : t.val = (i 0).val / 5000 := rfl
  refine ⟨t, flush1_10 t, ?_⟩
  show i ∈ ((View.whole main_v37).slice (win1_10.rect t)).set
  rw [View.set_slice_whole, Rect.mem_set_unit]
  intro a
  match a with
  | ⟨0, _⟩ =>
    show win1_10.index t (0 : Fin 2) * 5000 ≤ (i 0).val ∧ (i 0).val < win1_10.index t (0 : Fin 2) * 5000 + 5000
    rw [e0, ht]; omega
  | ⟨1, _⟩ =>
    show win1_10.index t (1 : Fin 2) * 128 ≤ (i 1).val ∧ (i 1).val < win1_10.index t (1 : Fin 2) * 128 + 128
    rw [e1]; omega

/-- After the region its output array is the layer of the arrays the region found. -/
theorem region1_value (c : Dev nD) : (dat1 V c).arrAt 10 cfg1.N = layerA (V c main_v20) (V c main_v32) (V c main_arg11) (V c main_v33) (V c main_arg13) (V c main_v34) (V c main_arg15) (V c main_v35) (V c main_arg17) (V c main_v36) :=
  (dat1 V c).arrAt_eq_of_cover 10 (layerA (V c main_v20) (V c main_v32) (V c main_arg11) (V c main_v33) (V c main_arg13) (V c main_v34) (V c main_arg15) (V c main_v35) (V c main_arg17) (V c main_v36)) (fun t _ => flushed1_eq V c t) (cover1)

end Cert.KernelIdeal.Hand

end
-- ==== Proof.HostReads.lean ====
/- What the host operations before each kernel region leave in the buffers the region reads.

   Both regions read the node features (or the first layer's output), the aggregated messages, four weight matrices
   and four biases.  The aggregated messages are one function `agg` of the features, the edge list's two rows and the
   edge weights: gather the source rows (a negative index wrapped by the number of nodes), scale each by its edge's
   weight, and add every scaled row into the row of its destination.  A bias arrives as a row vector: the bias
   reshaped to one row. -/
import proofs.«179761_j38422777430259_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- Row `r` of the edge list as a vector of node numbers, one per edge. -/
def edgeRow0 (ei : (⟨S2x640000, .i32⟩ : BufTy).Contents (Elt F)) : (⟨S640000, .i32⟩ : BufTy).Contents (Elt F) :=
  shapeCast _ (extractStridedSlice S1x640000 ![0, 0] ei slices_S2x640000_S1x640000_0_0) shapeCasts_S1x640000_S640000
def edgeRow1 (ei : (⟨S2x640000, .i32⟩ : BufTy).Contents (Elt F)) : (⟨S640000, .i32⟩ : BufTy).Contents (Elt F) :=
  shapeCast _ (extractStridedSlice S1x640000 ![1, 0] ei slices_S2x640000_S1x640000_1_0) shapeCasts_S1x640000_S640000

/-- The aggregated messages: for every edge the source node's row of `X` times the edge's weight, summed into the
    destination node's row (sources `src`, destinations `dst`, one entry per edge). -/
def agg (X : (⟨S50000x128, .f32⟩ : BufTy).Contents (Elt F)) (src dst : (⟨S640000, .i32⟩ : BufTy).Contents (Elt F))
    (ea : (⟨S640000x1, .f32⟩ : BufTy).Contents (Elt F)) : (⟨S50000x128, .f32⟩ : BufTy).Contents (Elt F) :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (mulf (broadcastInDim S640000x128 ![0, 1] bcast_S640000x1_S640000x128_0_1 ea)
      (Host.gather gather_S50000x128_S640000x1_S640000x128_1_0_n_n_0_1_1128 X
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))))

/-- A bias as the one-row matrix the kernel reads. -/
def biasRow (b : (⟨S128, .f32⟩ : BufTy).Contents (Elt F)) : (⟨S1x128, .f32⟩ : BufTy).Contents (Elt F) :=
  shapeCast _ b shapeCasts_S128_S1x128

variable (m : (ℓ : Loc nD τ sig) → Buf (Elt F) ℓ) (ρ : Dev nD → PrngReg)

/-! ## At the first region's entry -/

theorem V1_v1 (c : Dev nD) : V1 m ρ c main_v1 = edgeRow0 (m ((c : Thread nD τ).loc main_arg1)) := by
  show StableHlo.after hostOps0 (W0 m ρ c) (Proc.devRef .tc main_v1) = _
  after_results; rfl
theorem V1_v3 (c : Dev nD) : V1 m ρ c main_v3 = edgeRow1 (m ((c : Thread nD τ).loc main_arg1)) := by
  show StableHlo.after hostOps0 (W0 m ρ c) (Proc.devRef .tc main_v3) = _
  after_results; rfl
set_option maxHeartbeats 4000000 in
theorem V1_v15 (c : Dev nD) : V1 m ρ c main_v15 = agg (m ((c : Thread nD τ).loc main_arg0))
    (edgeRow0 (m ((c : Thread nD τ).loc main_arg1))) (edgeRow1 (m ((c : Thread nD τ).loc main_arg1))) (m ((c : Thread nD τ).loc main_arg2)) := by
  show StableHlo.after hostOps0 (W0 m ρ c) (Proc.devRef .tc main_v15) = _
  after_results_simp; rfl
theorem V1_v16 (c : Dev nD) : V1 m ρ c main_v16 = biasRow (m ((c : Thread nD τ).loc main_arg4)) := by
  show StableHlo.after hostOps0 (W0 m ρ c) (Proc.devRef .tc main_v16) = _
  after_results; rfl
theorem V1_v17 (c : Dev nD) : V1 m ρ c main_v17 = biasRow (m ((c : Thread nD τ).loc main_arg6)) := by
  show StableHlo.after hostOps0 (W0 m ρ c) (Proc.devRef .tc main_v17) = _
  after_results; rfl
theorem V1_v18 (c : Dev nD) : V1 m ρ c main_v18 = biasRow (m ((c : Thread nD τ).loc main_arg8)) := by
  show StableHlo.after hostOps0 (W0 m ρ c) (Proc.devRef .tc main_v18) = _
  after_results; rfl
theorem V1_v19 (c : Dev nD) : V1 m ρ c main_v19 = biasRow (m ((c : Thread nD τ).loc main_arg10)) := by
  show StableHlo.after hostOps0 (W0 m ρ c) (Proc.devRef .tc main_v19) = _
  after_results; rfl
theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg7 (c : Dev nD) : V1 m ρ c main_arg7 = m ((c : Thread nD τ).loc main_arg7) := by
  show StableHlo.after hostOps0 (W0 m ρ c) (Proc.devRef .tc main_arg7) = _
  after_results
theorem V1_arg9 (c : Dev nD) : V1 m ρ c main_arg9 = m ((c : Thread nD τ).loc main_arg9) := by
  show StableHlo.after hostOps0 (W0 m ρ c) (Proc.devRef .tc main_arg9) = _
  after_results

end Cert.KernelIdeal.Hand

end
-- ==== Proof.HostReads1.lean ====
/- What the host operations between the two regions leave in the buffers the second region reads, and what the
   first region's exit keeps of the buffers written before it.

   The second region reads the first region's output (as features), the messages aggregated from that output over
   the same edges and edge weights, and the second layer's weights and bias rows.  The edge list's two rows were
   computed before the first region and are not touched by it. -/
import proofs.«179761_j38422777430259_1_alg».proof.Proof.HostReads

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Arguments of the second layer at the first region's entry -/

theorem V1_arg11 (c : Dev nD) : V1 m ρ c main_arg11 = m ((c : Thread nD τ).loc main_arg11) := by
  show StableHlo.after hostOps0 (W0 m ρ c) (Proc.devRef .tc main_arg11) = _
  after_results
theorem V1_arg12 (c : Dev nD) : V1 m ρ c main_arg12 = m ((c : Thread nD τ).loc main_arg12) := by
  show StableHlo.after hostOps0 (W0 m ρ c) (Proc.devRef .tc main_arg12) = _
  after_results
theorem V1_arg13 (c : Dev nD) : V1 m ρ c main_arg13 = m ((c : Thread nD τ).loc main_arg13) := by
  show StableHlo.after hostOps0 (W0 m ρ c) (Proc.devRef .tc main_arg13) = _
  after_results
theorem V1_arg14 (c : Dev nD) : V1 m ρ c main_arg14 = m ((c : Thread nD τ).loc main_arg14) := by
  show StableHlo.after hostOps0 (W0 m ρ c) (Proc.devRef .tc main_arg14) = _
  after_results
theorem V1_arg15 (c : Dev nD) : V1 m ρ c main_arg15 = m ((c : Thread nD τ).loc main_arg15) := by
  show StableHlo.after hostOps0 (W0 m ρ c) (Proc.devRef .tc main_arg15) = _
  after_results
theorem V1_arg16 (c : Dev nD) : V1 m ρ c main_arg16 = m ((c : Thread nD τ).loc main_arg16) := by
  show StableHlo.after hostOps0 (W0 m ρ c) (Proc.devRef .tc main_arg16) = _
  after_results
theorem V1_arg17 (c : Dev nD) : V1 m ρ c main_arg17 = m ((c : Thread nD τ).loc main_arg17) := by
  show StableHlo.after hostOps0 (W0 m ρ c) (Proc.devRef .tc main_arg17) = _
  after_results
theorem V1_arg18 (c : Dev nD) : V1 m ρ c main_arg18 = m ((c : Thread nD τ).loc main_arg18) := by
  show StableHlo.after hostOps0 (W0 m ρ c) (Proc.devRef .tc main_arg18) = _
  after_results

/-! ## At the first region's exit: a buffer that is none of the region's arrays is as at its entry -/

theorem W2_v1 (c : Dev nD) : W2 m ρ c (Proc.devRef .tc main_v1) = edgeRow0 (m ((c : Thread nD τ).loc main_arg1)) :=
  (W2_of_ne m ρ c main_v1 (by decide)).trans (V1_v1 m ρ c)
theorem W2_v3 (c : Dev nD) : W2 m ρ c (Proc.devRef .tc main_v3) = edgeRow1 (m ((c : Thread nD τ).loc main_arg1)) :=
  (W2_of_ne m ρ c main_v3 (by decide)).trans (V1_v3 m ρ c)
theorem W2_arg2 (c : Dev nD) : W2 m ρ c (Proc.devRef .tc main_arg2) = m ((c : Thread nD τ).loc main_arg2) :=
  (W2_of_ne m ρ c main_arg2 (by decide)).trans (V1_arg2 m ρ c)
theorem W2_arg11 (c : Dev nD) : W2 m ρ c (Proc.devRef .tc main_arg11) = m ((c : Thread nD τ).loc main_arg11) :=
  (W2_of_ne m ρ c main_arg11 (by decide)).trans (V1_arg11 m ρ c)
theorem W2_arg12 (c : Dev nD) : W2 m ρ c (Proc.devRef .tc main_arg12) = m ((c : Thread nD τ).loc main_arg12) :=
  (W2_of_ne m ρ c main_arg12 (by decide)).trans (V1_arg12 m ρ c)
theorem W2_arg13 (c : Dev nD) : W2 m ρ c (Proc.devRef .tc main_arg13) = m ((c : Thread nD τ).loc main_arg13) :=
  (W2_of_ne m ρ c main_arg13 (by decide)).trans (V1_arg13 m ρ c)
theorem W2_arg14 (c : Dev nD) : W2 m ρ c (Proc.devRef .tc main_arg14) = m ((c : Thread nD τ).loc main_arg14) :=
  (W2_of_ne m ρ c main_arg14 (by decide)).trans (V1_arg14 m ρ c)
theorem W2_arg15 (c : Dev nD) : W2 m ρ c (Proc.devRef .tc main_arg15) = m ((c : Thread nD τ).loc main_arg15) :=
  (W2_of_ne m ρ c main_arg15 (by decide)).trans (V1_arg15 m ρ c)
theorem W2_arg16 (c : Dev nD) : W2 m ρ c (Proc.devRef .tc main_arg16) = m ((c : Thread nD τ).loc main_arg16) :=
  (W2_of_ne m ρ c main_arg16 (by decide)).trans (V1_arg16 m ρ c)
theorem W2_arg17 (c : Dev nD) : W2 m ρ c (Proc.devRef .tc main_arg17) = m ((c : Thread nD τ).loc main_arg17) :=
  (W2_of_ne m ρ c main_arg17 (by decide)).trans (V1_arg17 m ρ c)
theorem W2_arg18 (c : Dev nD) : W2 m ρ c (Proc.devRef .tc main_arg18) = m ((c : Thread nD τ).loc main_arg18) :=
  (W2_of_ne m ρ c main_arg18 (by decide)).trans (V1_arg18 m ρ c)

/-! ## At the second region's entry -/

theorem V3_v20 (c : Dev nD) : V3 m ρ c main_v20 = W2 m ρ c (Proc.devRef .tc main_v20) := by
  show StableHlo.after hostOps1 (W2 m ρ c) (Proc.devRef .tc main_v20) = _
  after_results
set_option maxHeartbeats 4000000 in
theorem V3_v32 (c : Dev nD) : V3 m ρ c main_v32 = agg (W2 m ρ c (Proc.devRef .tc main_v20))
    (W2 m ρ c (Proc.devRef .tc main_v1)) (W2 m ρ c (Proc.devRef .tc main_v3)) (W2 m ρ c (Proc.devRef .tc main_arg2)) := by
  show StableHlo.after hostOps1 (W2 m ρ c) (Proc.devRef .tc main_v32) = _
  after_results_simp; rfl
theorem V3_v33 (c : Dev nD) : V3 m ρ c main_v33 = biasRow (W2 m ρ c (Proc.devRef .tc main_arg12)) := by
  show StableHlo.after hostOps1 (W2 m ρ c) (Proc.devRef .tc main_v33) = _
  after_results; rfl
theorem V3_v34 (c : Dev nD) : V3 m ρ c main_v34 = biasRow (W2 m ρ c (Proc.devRef .tc main_arg14)) := by
  show StableHlo.after hostOps1 (W2 m ρ c) (Proc.devRef .tc main_v34) = _
  after_results; rfl
theorem V3_v35 (c : Dev nD) : V3 m ρ c main_v35 = biasRow (W2 m ρ c (Proc.devRef .tc main_arg16)) := by
  show StableHlo.after hostOps1 (W2 m ρ c) (Proc.devRef .tc main_v35) = _
  after_results; rfl
theorem V3_v36 (c : Dev nD) : V3 m ρ c main_v36 = biasRow (W2 m ρ c (Proc.devRef .tc main_arg18)) := by
  show StableHlo.after hostOps1 (W2 m ρ c) (Proc.devRef .tc main_v36) = _
  after_results; rfl
theorem V3_arg11 (c : Dev nD) : V3 m ρ c main_arg11 = W2 m ρ c (Proc.devRef .tc main_arg11) := by
  show StableHlo.after hostOps1 (W2 m ρ c) (Proc.devRef .tc main_arg11) = _
  after_results
theorem V3_arg13 (c : Dev nD) : V3 m ρ c main_arg13 = W2 m ρ c (Proc.devRef .tc main_arg13) := by
  show StableHlo.after hostOps1 (W2 m ρ c) (Proc.devRef .tc main_arg13) = _
  after_results
theorem V3_arg15 (c : Dev nD) : V3 m ρ c main_arg15 = W2 m ρ c (Proc.devRef .tc main_arg15) := by
  show StableHlo.after hostOps1 (W2 m ρ c) (Proc.devRef .tc main_arg15) = _
  after_results
theorem V3_arg17 (c : Dev nD) : V3 m ρ c main_arg17 = W2 m ρ c (Proc.devRef .tc main_arg17) := by
  show StableHlo.after hostOps1 (W2 m ρ c) (Proc.devRef .tc main_arg17) = _
  after_results

end Cert.KernelIdeal.Hand

end
-- ==== Proof.KValue.lean ====
/- The kernel program's result as a function of its arguments.

   The first region's output is the layer of the input features, of the messages aggregated from them and of the
   first layer's weights and biases (`hidden`); the second region's output, the program's result, is the layer of
   `hidden`, of the messages aggregated from `hidden` over the same edges, and of the second layer's weights and
   biases (`result`). -/
import proofs.«179761_j38422777430259_1_alg».proof.Proof.KRun
import proofs.«179761_j38422777430259_1_alg».proof.Proof.Region0
import proofs.«179761_j38422777430259_1_alg».proof.Proof.Region1
import proofs.«179761_j38422777430259_1_alg».proof.Proof.HostReads1

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first layer's output. -/
def hidden (c : Dev nD) : Vec Ideal S50000x128 .f32 :=
  layerA (m ((c : Thread nD τ).loc main_arg0)) (agg (m ((c : Thread nD τ).loc main_arg0)) (edgeRow0 (m ((c : Thread nD τ).loc main_arg1))) (edgeRow1 (m ((c : Thread nD τ).loc main_arg1))) (m ((c : Thread nD τ).loc main_arg2)))
    (m ((c : Thread nD τ).loc main_arg3)) (biasRow (m ((c : Thread nD τ).loc main_arg4))) (m ((c : Thread nD τ).loc main_arg5)) (biasRow (m ((c : Thread nD τ).loc main_arg6))) (m ((c : Thread nD τ).loc main_arg7)) (biasRow (m ((c : Thread nD τ).loc main_arg8))) (m ((c : Thread nD τ).loc main_arg9)) (biasRow (m ((c : Thread nD τ).loc main_arg10)))

/-- The second layer's output: the program's result. -/
def result (c : Dev nD) : Vec Ideal S50000x128 .f32 :=
  layerA (hidden m c) (agg (hidden m c) (edgeRow0 (m ((c : Thread nD τ).loc main_arg1))) (edgeRow1 (m ((c : Thread nD τ).loc main_arg1))) (m ((c : Thread nD τ).loc main_arg2)))
    (m ((c : Thread nD τ).loc main_arg11)) (biasRow (m ((c : Thread nD τ).loc main_arg12))) (m ((c : Thread nD τ).loc main_arg13)) (biasRow (m ((c : Thread nD τ).loc main_arg14))) (m ((c : Thread nD τ).loc main_arg15)) (biasRow (m ((c : Thread nD τ).loc main_arg16))) (m ((c : Thread nD τ).loc main_arg17)) (biasRow (m ((c : Thread nD τ).loc main_arg18)))

/-- At the first region's exit its output array holds the first layer's output. -/
theorem W2_v20 (c : Dev nD) : W2 m ρ c (Proc.devRef .tc main_v20) = hidden m c := by
  refine (W2_arr m ρ c 10).trans ?_
  rw [region0_value (V1 m ρ) c, V1_arg0, V1_v15, V1_arg3, V1_v16, V1_arg5, V1_v17, V1_arg7, V1_v18, V1_arg9, V1_v19]
  rfl

/-- At the second region's exit its output array holds the program's result. -/
theorem W4_v37 (c : Dev nD) : W4 m ρ c (Proc.devRef .tc main_v37) = result m c := by
  refine (W4_arr m ρ c 10).trans ?_
  rw [region1_value (V3 m ρ) c, V3_v20, V3_v32, V3_arg11, V3_v33, V3_arg13, V3_v34, V3_arg15, V3_v35, V3_arg17, V3_v36,
    W2_v20, W2_v1, W2_v3, W2_arg2, W2_arg11, W2_arg12, W2_arg13, W2_arg14, W2_arg15, W2_arg16, W2_arg17, W2_arg18]
  rfl

/-- Every weakly fair execution of the kernel program terminates, nothing faulting, with the result array at
    `result` of the arguments and the arguments unchanged. -/
theorem run : θ_run defs (onTc (τ := τ) (main (F := Ideal))) ⟨m, fun _ => 0, ρ⟩ (fun r => ∀ c : Dev nD,
      r.2.mem ((c.tc : Thread nD τ).loc main_v37) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h c).1.trans (W4_v37 m ρ c), (h c).2⟩) (Cert.KernelIdeal.GenRun.run_named m ρ)

end Cert.KernelIdeal.Hand

end
-- ==== Proof.RefLayer.lean ====
/- The reference as two applications of one layer.

   The reference computes, twice, relu ((X wa + ba) + (G wv + bv) + (X wb + bb) * (X wc + bc)) with
   G the messages aggregated from X over the edges: first from the input features, then from the first result.
   At the extended reals an entry (r, j) of one such layer is
     max ((lin X wa ba + lin G wv bv) + lin X wb bb * lin X wc bc) 0   at (r, j),
   lin X w b (r, j) = (sum over k of X(r, k) * w(k, j)) + b(j). -/
import proofs.«179761_j38422777430259_1_alg».proof.Proof.Gen.ReferenceIdeal.Read

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.ValueIdx

variable {F : FTy → Type} [FloatOps F]

/-- Row 0 and row 1 of the edge list as vectors of node numbers, one per edge. -/
def edgeRow0 (ei : (⟨S2x640000, .i32⟩ : BufTy).Contents (Elt F)) : (⟨S640000, .i32⟩ : BufTy).Contents (Elt F) :=
  shapeCast _ (extractStridedSlice S1x640000 ![0, 0] ei slices_S2x640000_S1x640000_0_0) shapeCasts_S1x640000_S640000
def edgeRow1 (ei : (⟨S2x640000, .i32⟩ : BufTy).Contents (Elt F)) : (⟨S640000, .i32⟩ : BufTy).Contents (Elt F) :=
  shapeCast _ (extractStridedSlice S1x640000 ![1, 0] ei slices_S2x640000_S1x640000_1_0) shapeCasts_S1x640000_S640000

/-- The aggregated messages: for every edge the source node's row of `X` times the edge's weight, summed into the
    destination node's row. -/
def agg (X : (⟨S50000x128, .f32⟩ : BufTy).Contents (Elt F)) (src dst : (⟨S640000, .i32⟩ : BufTy).Contents (Elt F))
    (ea : (⟨S640000x1, .f32⟩ : BufTy).Contents (Elt F)) : (⟨S50000x128, .f32⟩ : BufTy).Contents (Elt F) :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 dst)
    (mulf (broadcastInDim S640000x128 ![0, 1] bcast_S640000x1_S640000x128_0_1 ea)
      (Host.gather gather_S50000x128_S640000x1_S640000x128_1_0_n_n_0_1_1128 X
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 50000#32))) src))))

/-- One layer, in the reference's own operations. -/
def layerR (X G : (⟨S50000x128, .f32⟩ : BufTy).Contents (Elt F)) (wa : (⟨S128x128, .f32⟩ : BufTy).Contents (Elt F)) (ba : (⟨S128, .f32⟩ : BufTy).Contents (Elt F))
    (wb : (⟨S128x128, .f32⟩ : BufTy).Contents (Elt F)) (bb : (⟨S128, .f32⟩ : BufTy).Contents (Elt F)) (wc : (⟨S128x128, .f32⟩ : BufTy).Contents (Elt F)) (bc : (⟨S128, .f32⟩ : BufTy).Contents (Elt F))
    (wv : (⟨S128x128, .f32⟩ : BufTy).Contents (Elt F)) (bv : (⟨S128, .f32⟩ : BufTy).Contents (Elt F)) : (⟨S50000x128, .f32⟩ : BufTy).Contents (Elt F) :=
  maximumf (addf (addf (val_main_v3 X wa ba) (val_main_v3 G wv bv)) (mulf (val_main_v3 X wb bb) (val_main_v3 X wc bc)))
    (val_main_call0_v0 (F := F))

/-- The first layer's result. -/
def hiddenR (m : (ℓ : Loc nD τ sig) → Buf (Elt F) ℓ) (c : Dev nD) : (⟨S50000x128, .f32⟩ : BufTy).Contents (Elt F) :=
  layerR (m ((c.tc : Thread nD τ).loc main_arg0)) (agg (m ((c.tc : Thread nD τ).loc main_arg0)) (edgeRow0 (m ((c.tc : Thread nD τ).loc main_arg1))) (edgeRow1 (m ((c.tc : Thread nD τ).loc main_arg1))) (m ((c.tc : Thread nD τ).loc main_arg2)))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

/-- The reference's result is the layer applied to the first layer's result. -/
theorem res_eq (m : (ℓ : Loc nD τ sig) → Buf (Elt F) ℓ) (c : Dev nD) :
    Cert.ReferenceIdeal.Value.res_main_v71 m c
      = layerR (hiddenR m c) (agg (hiddenR m c) (edgeRow0 (m ((c.tc : Thread nD τ).loc main_arg1))) (edgeRow1 (m ((c.tc : Thread nD τ).loc main_arg1))) (m ((c.tc : Thread nD τ).loc main_arg2)))
          (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) := by
  unfold Cert.ReferenceIdeal.Value.res_main_v71; rfl

/-- One linear map of the whole array at an index. -/
def linR (X : (⟨S50000x128, .f32⟩ : BufTy).Contents (Elt Ideal)) (w : (⟨S128x128, .f32⟩ : BufTy).Contents (Elt Ideal)) (b : (⟨S128, .f32⟩ : BufTy).Contents (Elt Ideal)) (i : S50000x128.Idx) : EReal :=
  (∑ k : Fin 128, X (lidx_main_v0 i k) * w (ridx_main_v0 i k)) + b (idx_main_v1 (idx_main_v2 i))

theorem lin_apply (X : (⟨S50000x128, .f32⟩ : BufTy).Contents (Elt Ideal)) (w : (⟨S128x128, .f32⟩ : BufTy).Contents (Elt Ideal)) (b : (⟨S128, .f32⟩ : BufTy).Contents (Elt Ideal)) (i : S50000x128.Idx) :
    val_main_v3 (F := Ideal) X w b i = linR X w b i := by
  rw [val_main_v3_apply, val_main_v0_apply, val_main_v2_apply, val_main_v1_apply]
  rfl

/-- The layer at an index. -/
theorem layerR_apply (X G : (⟨S50000x128, .f32⟩ : BufTy).Contents (Elt Ideal)) (wa : (⟨S128x128, .f32⟩ : BufTy).Contents (Elt Ideal)) (ba : (⟨S128, .f32⟩ : BufTy).Contents (Elt Ideal))
    (wb : (⟨S128x128, .f32⟩ : BufTy).Contents (Elt Ideal)) (bb : (⟨S128, .f32⟩ : BufTy).Contents (Elt Ideal)) (wc : (⟨S128x128, .f32⟩ : BufTy).Contents (Elt Ideal)) (bc : (⟨S128, .f32⟩ : BufTy).Contents (Elt Ideal))
    (wv : (⟨S128x128, .f32⟩ : BufTy).Contents (Elt Ideal)) (bv : (⟨S128, .f32⟩ : BufTy).Contents (Elt Ideal)) (i : S50000x128.Idx) :
    layerR (F := Ideal) X G wa ba wb bb wc bc wv bv i
      = max ((linR X wa ba i + linR G wv bv i) + linR X wb bb i * linR X wc bc i) 0 := by
  unfold layerR
  rw [maximumf_apply, addf_apply, addf_apply, mulf_apply, lin_apply, lin_apply, lin_apply, lin_apply,
    val_main_call0_v0_apply, val_main_call0_cst_apply]
  show max _ (Ideal.ofBits .f32 0x00000000#32) = _
  rw [Ideal.ofBits_zero_f32]

end Cert.ReferenceIdeal.Hand

end
-- ==== Proof.Bridge.lean ====
/- The reference's layer and the kernel's layer are one function.

   Index by index both are  max ((lin X wa ba + lin G wv bv) + lin X wb bb * lin X wc bc) 0;  the kernel reads each
   bias through its reshape to one row, whose entry (0, j) is the bias's entry j.  The aggregated messages are
   spelt with the same operations in both programs. -/
import proofs.«179761_j38422777430259_1_alg».proof.Proof.RefLayer
import proofs.«179761_j38422777430259_1_alg».proof.Proof.LayerArr
import proofs.«179761_j38422777430259_1_alg».proof.Proof.HostReads

noncomputable section

namespace Cert.Bridge

open Idealize.ShloMosaic Idealize.ShloMosaic.TcCoe Idealize.SL.Sem Idealize.ShloMosaic.ValueIdx

/-- Entry (0, j) of a bias read as one row is the bias's entry j. -/
theorem biasRow_apply (b : (⟨Cert.KernelIdeal.S128, .f32⟩ : BufTy).Contents (Elt Ideal)) (i : Cert.KernelIdeal.S50000x128.Idx) :
    Cert.KernelIdeal.Hand.biasRow (F := Ideal) b (Cert.KernelIdeal.Hand.aBias i)
      = b (Cert.ReferenceIdeal.Read.idx_main_v1 (Cert.ReferenceIdeal.Read.idx_main_v2 i)) := by
  unfold Cert.KernelIdeal.Hand.biasRow
  exact shapeCast_apply b Cert.KernelIdeal.Gen.shapeCasts_S128_S1x128 (Cert.KernelIdeal.Hand.aBias i)
    (Cert.ReferenceIdeal.Read.idx_main_v1 (Cert.ReferenceIdeal.Read.idx_main_v2 i))
    (by rewrite [Shape.rowMajor_val_one, Shape.rowMajor_val_two]; show (i 1).val = 0 * 128 + (i 1).val; omega)

/-- One linear map: the reference's, with the bias a vector, is the kernel's, with the bias a row. -/
theorem lin_eq (X : (⟨Cert.KernelIdeal.S50000x128, .f32⟩ : BufTy).Contents (Elt Ideal)) (w : (⟨Cert.KernelIdeal.S128x128, .f32⟩ : BufTy).Contents (Elt Ideal)) (b : (⟨Cert.KernelIdeal.S128, .f32⟩ : BufTy).Contents (Elt Ideal))
    (i : Cert.KernelIdeal.S50000x128.Idx) :
    Cert.ReferenceIdeal.Hand.linR X w b i = Cert.KernelIdeal.Hand.linA X w (Cert.KernelIdeal.Hand.biasRow (F := Ideal) b) i := by
  unfold Cert.ReferenceIdeal.Hand.linR Cert.KernelIdeal.Hand.linA
  rw [biasRow_apply]
  rfl

/-- The reference's layer is the kernel's layer of the same arrays, each bias read as one row. -/
theorem layer_eq (X G : (⟨Cert.KernelIdeal.S50000x128, .f32⟩ : BufTy).Contents (Elt Ideal)) (wa : (⟨Cert.KernelIdeal.S128x128, .f32⟩ : BufTy).Contents (Elt Ideal)) (ba : (⟨Cert.KernelIdeal.S128, .f32⟩ : BufTy).Contents (Elt Ideal))
    (wb : (⟨Cert.KernelIdeal.S128x128, .f32⟩ : BufTy).Contents (Elt Ideal)) (bb : (⟨Cert.KernelIdeal.S128, .f32⟩ : BufTy).Contents (Elt Ideal)) (wc : (⟨Cert.KernelIdeal.S128x128, .f32⟩ : BufTy).Contents (Elt Ideal)) (bc : (⟨Cert.KernelIdeal.S128, .f32⟩ : BufTy).Contents (Elt Ideal))
    (wv : (⟨Cert.KernelIdeal.S128x128, .f32⟩ : BufTy).Contents (Elt Ideal)) (bv : (⟨Cert.KernelIdeal.S128, .f32⟩ : BufTy).Contents (Elt Ideal)) :
    Cert.ReferenceIdeal.Hand.layerR (F := Ideal) X G wa ba wb bb wc bc wv bv
      = Cert.KernelIdeal.Hand.layerA X G wa (Cert.KernelIdeal.Hand.biasRow (F := Ideal) ba) wb (Cert.KernelIdeal.Hand.biasRow (F := Ideal) bb)
          wc (Cert.KernelIdeal.Hand.biasRow (F := Ideal) bc) wv (Cert.KernelIdeal.Hand.biasRow (F := Ideal) bv) := by
  funext i
  rw [Cert.ReferenceIdeal.Hand.layerR_apply, lin_eq, lin_eq, lin_eq, lin_eq]
  rfl

/-- The two programs spell the edge list's rows and the aggregation with the same operations. -/
theorem edgeRow0_eq (ei : (⟨Cert.KernelIdeal.S2x640000, .i32⟩ : BufTy).Contents (Elt Ideal)) :
    Cert.ReferenceIdeal.Hand.edgeRow0 (F := Ideal) ei = Cert.KernelIdeal.Hand.edgeRow0 (F := Ideal) ei := rfl
theorem edgeRow1_eq (ei : (⟨Cert.KernelIdeal.S2x640000, .i32⟩ : BufTy).Contents (Elt Ideal)) :
    Cert.ReferenceIdeal.Hand.edgeRow1 (F := Ideal) ei = Cert.KernelIdeal.Hand.edgeRow1 (F := Ideal) ei := rfl
theorem agg_eq (X : (⟨Cert.KernelIdeal.S50000x128, .f32⟩ : BufTy).Contents (Elt Ideal)) (src dst : (⟨Cert.KernelIdeal.S640000, .i32⟩ : BufTy).Contents (Elt Ideal)) (ea : (⟨Cert.KernelIdeal.S640000x1, .f32⟩ : BufTy).Contents (Elt Ideal)) :
    Cert.ReferenceIdeal.Hand.agg (F := Ideal) X src dst ea = Cert.KernelIdeal.Hand.agg (F := Ideal) X src dst ea := rfl

end Cert.Bridge

end
-- ==== Proof.lean ====
/- Two stacked graph layers: the kernel program against the plain reference, over the extended reals.

   One layer maps node features X (one row of 128 entries per node) to
     relu ((X wa + ba) + (G wv + bv) + (X wb + bb) * (X wc + bc)),
   where G aggregates, into each node's row, the rows of X at the sources of its incoming edges, each scaled by
   its edge's weight.  The reference applies the layer twice with plain matrix products.  The kernel program
   computes G on the host with the same gather, product and scatter-add as the reference, and runs the dense part
   in a kernel over ten blocks of 5000 rows; the kernel rounds its matrix operands to a shorter float format,
   which is the identity over the extended reals, and accumulates each product into zero.

   So both programs compute, index by index, the same sums, sums of sums, products and maxima of the same entries:
   no algebraic law is needed beyond reading each side at an index, and the precondition (finite inputs) is never
   opened.  The proof reads the kernel's output array block by block (each output row depends on the same row of X
   and of G only, and the ten blocks tile the rows), reads the host operations around the two kernel regions,
   and meets the reference's composed term, which is the layer applied twice. -/
import proofs.«179761_j38422777430259_1_alg».proof.Defs
import proofs.«179761_j38422777430259_1_alg».proof.Proof.Gen.Kernel
import proofs.«179761_j38422777430259_1_alg».proof.Proof.Gen.Kernel.Skeleton
import proofs.«179761_j38422777430259_1_alg».proof.Proof.Gen.Kernel.Launch
import proofs.«179761_j38422777430259_1_alg».proof.Proof.Gen.Kernel.Points
import proofs.«179761_j38422777430259_1_alg».proof.Proof.Gen.Kernel.Frame
import proofs.«179761_j38422777430259_1_alg».proof.Proof.Gen.KernelIdeal
import proofs.«179761_j38422777430259_1_alg».proof.Proof.Gen.KernelIdeal.Skeleton
import proofs.«179761_j38422777430259_1_alg».proof.Proof.Gen.KernelIdeal.Launch
import proofs.«179761_j38422777430259_1_alg».proof.Proof.Gen.KernelIdeal.Points
import proofs.«179761_j38422777430259_1_alg».proof.Proof.Gen.KernelIdeal.Frame
import proofs.«179761_j38422777430259_1_alg».proof.Proof.Gen.ReferenceIdeal
import proofs.«179761_j38422777430259_1_alg».proof.Proof.Gen.ReferenceIdeal.Run
import proofs.«179761_j38422777430259_1_alg».proof.Proof.Gen.ReferenceIdeal.Read
import proofs.«179761_j38422777430259_1_alg».proof.Proof.Gen.Pre_finite_inputs
import proofs.«179761_j38422777430259_1_alg».proof.Proof.KValue
import proofs.«179761_j38422777430259_1_alg».proof.Proof.Bridge
import Idealize.ShloMosaic.Adequacy
import Idealize.ShloMosaic.Init

noncomputable section

namespace Cert.Proof

open Idealize.ShloMosaic Idealize.SL.Sem

/-- The kernel program runs and keeps its arguments, at the word level and over the extended reals. -/
theorem frame_kernel : Cert.frame_Kernel := fun m ρ _ => Cert.Kernel.Gen.frame m ρ
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the reference's composed term is the kernel program's result: both are the layer
    applied twice, and the two spellings of the layer are one function. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.ReferenceIdeal.Value.res_main_v71 m' c = Cert.KernelIdeal.Hand.result m c := by
  obtain ⟨h0, h1, h2, h3, h4, h5, h6, h7, h8, h9, h10, h11, h12, h13, h14, h15, h16, h17, h18⟩ := h
  rw [Cert.ReferenceIdeal.Hand.res_eq]
  unfold Cert.ReferenceIdeal.Hand.hiddenR
  rw [h0, h1, h2, h3, h4, h5, h6, h7, h8, h9, h10, h11, h12, h13, h14, h15, h16, h17, h18]
  rw [Cert.Bridge.layer_eq, Cert.Bridge.layer_eq, Cert.Bridge.agg_eq, Cert.Bridge.agg_eq, Cert.Bridge.edgeRow0_eq, Cert.Bridge.edgeRow1_eq]
  rfl

/-- Both programs run, from memories agreeing on the arguments, to the same result. -/
theorem algebraic : Cert.algebraic_KernelIdeal_ReferenceIdeal := by
  intro m ρ m' ρ' _ hagree
  refine ⟨fun c => Cert.KernelIdeal.Hand.result m c, Cert.KernelIdeal.Hand.run m ρ, ?_⟩
  exact (θ_run Cert.ReferenceIdeal.defs _ _).mono (fun _ h c => ⟨(h c).1.trans (result_eq m m' c (hagree c)), (h c).2⟩)
    (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
